-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S2048x2 : Shape := ⟨2, ![2048, 2]⟩
abbrev S2048x2048 : Shape := ⟨2, ![2048, 2048]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048x2 : S_.BroadcastsInDim S2048x2 (![] : Fin 0 → Fin S2048x2.rank)
  reducesTo_S2048x2_S_d0_1 : S2048x2.ReducesTo [0, 1] S_

variable [Facts]

def fn {F : FTy → Type} [FloatOps F] (main_arg0 : FVec F S65536x1024 .f32) (main_arg1 : IVec S2048x2 32) (main_arg2 : FVec F S2048x2048 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S2048x2048 .f32 := Host.absf main_arg2
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_c_2 : IVec S_ 32 := constantI S_ 32 0#32
  let main_v9 : IVec S2048x2 32 := broadcastInDim S2048x2 ![] bcast_S_S2048x2 main_c_2
  let main_v10 : IVec S2048x2 1 := cmpi .sge main_arg1 main_v9
  let main_c_3 : IVec S_ 32 := constantI S_ 32 1024#32
  let main_v11 : IVec S2048x2 32 := broadcastInDim S2048x2 ![] bcast_S_S2048x2 main_c_3
  let main_v12 : IVec S2048x2 1 := cmpi .slt main_arg1 main_v11
  let main_v13 : IVec S2048x2 1 := andi main_v10 main_v12
  let main_c_4 : IVec S_ 1 := constantI S_ 1 1#1
  let main_v14 : IVec S_ 1 := (fun x v => Host.reduce IntOp.andi x v reducesTo_S2048x2_S_d0_1 h_S_) main_v13 main_c_4
  let main_v15 : IVec S_ 1 := andi main_v8 main_v14
  main_v15
-- ==== Kernel.lean ====
abbrev S65536x1024 : Shape := ⟨2, ![65536, 1024]⟩
abbrev S2048x2 : Shape := ⟨2, ![2048, 2]⟩
abbrev S2048x2048 : Shape := ⟨2, ![2048, 2048]⟩
abbrev S2048x1 : Shape := ⟨2, ![2048, 1]⟩
abbrev S2048 : Shape := ⟨1, ![2048]⟩
abbrev S_ : Shape := ⟨0, ![]⟩
abbrev S1 : Shape := ⟨1, ![1]⟩
abbrev S1x1 : Shape := ⟨2, ![1, 1]⟩
abbrev S65536x2048 : Shape := ⟨2, ![65536, 2048]⟩
abbrev S1024x2048 : Shape := ⟨2, ![1024, 2048]⟩

abbrev nBuf : Space → Nat
  | .hbm => 74
  | .vmem => 5
  | .smem => 0
  | _ => 0

abbrev bufTy : (tb : Table) → Fin (tcTables nBuf tb) → BufTy
  | .hbm, ⟨0, _⟩ => ⟨S65536x1024, .f32⟩
  | .hbm, ⟨1, _⟩ => ⟨S2048x2, .i32⟩
  | .hbm, ⟨2, _⟩ => ⟨S2048x2048, .f32⟩
  | .hbm, ⟨3, _⟩ => ⟨S2048x1, .i32⟩
  | .hbm, ⟨4, _⟩ => ⟨S2048, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S2048, .i32⟩
  | .hbm, ⟨9, _⟩ => ⟨S2048, .i32⟩
  | .hbm, ⟨10, _⟩ => ⟨S_, .i32⟩
  | .hbm, ⟨11, _⟩ => ⟨S2048, .i32⟩
  | .hbm, ⟨12, _⟩ => ⟨S2048, .i32⟩
  | .hbm, ⟨13, _⟩ => ⟨S2048x1, .i32⟩
  | .hbm, ⟨14, _⟩ => ⟨S2048, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S_, .i32⟩
  | .hbm, ⟨27, _⟩ => ⟨S2048, .i32⟩
  | .hbm, ⟨28, _⟩ => ⟨S2048, .i32⟩
  | .hbm, ⟨29, _⟩ => ⟨S2048, .i32⟩
  | .hbm, ⟨30, _⟩ => ⟨S2048x1, .i32⟩
  | .hbm, ⟨31, _⟩ => ⟨S1, .i32⟩
  | .hbm, ⟨32, _⟩ => ⟨S_, .i32⟩
  | .hbm, ⟨33, _⟩ => ⟨S2048x1, .i32⟩
  | .hbm, ⟨34, _⟩ => ⟨S2048x1, .i1⟩
  | .hbm, ⟨35, _⟩ => ⟨S1x1, .i32⟩
  | .hbm, ⟨36, _⟩ => ⟨S2048x1, .i32⟩
  | .hbm, ⟨37, _⟩ => ⟨S2048x1, .i1⟩
  | .hbm, ⟨38, _⟩ => ⟨S2048x1, .i1⟩
  | .hbm, ⟨39, _⟩ => ⟨S_, .i1⟩
  | .hbm, ⟨40, _⟩ => ⟨S2048, .i1⟩
  | .hbm, ⟨41, _⟩ => ⟨S65536x2048, .f32⟩
  | .hbm, ⟨42, _⟩ => ⟨S65536x2048, .i1⟩
  | .hbm, ⟨43, _⟩ => ⟨S_, .f32⟩
  | .hbm, ⟨44, _⟩ => ⟨S65536x2048, .f32⟩
  | .hbm, ⟨45, _⟩ => ⟨S65536x2048, .f32⟩
  | .hbm, ⟨46, _⟩ => ⟨S_, .i32⟩
  | .hbm, ⟨47, _⟩ => ⟨S2048, .i32⟩
  | .hbm, ⟨48, _⟩ => ⟨S2048, .i1⟩
  | .hbm, ⟨49, _⟩ => ⟨S_, .i32⟩
  | .hbm, ⟨50, _⟩ => ⟨S2048, .i32⟩
  | .hbm, ⟨51, _⟩ => ⟨S2048, .i32⟩
  | .hbm, ⟨52, _⟩ => ⟨S2048, .i32⟩
  | .hbm, ⟨53, _⟩ => ⟨S2048x1, .i32⟩
  | .hbm, ⟨54, _⟩ => ⟨S1, .i32⟩
  | .hbm, ⟨55, _⟩ => ⟨S_, .i32⟩
  | .hbm, ⟨56, _⟩ => ⟨S2048x1, .i32⟩
  | .hbm, ⟨57, _⟩ => ⟨S2048x1, .i1⟩
  | .hbm, ⟨58, _⟩ => ⟨S1x1, .i32⟩
  | .hbm, ⟨59, _⟩ => ⟨S2048x1, .i32⟩
  | .hbm, ⟨60, _⟩ => ⟨S2048x1, .i1⟩
  | .hbm, ⟨61, _⟩ => ⟨S2048x1, .i1⟩
  | .hbm, ⟨62, _⟩ => ⟨S_, .i1⟩
  | .hbm, ⟨63, _⟩ => ⟨S2048, .i1⟩
  | .hbm, ⟨64, _⟩ => ⟨S65536x2048, .f32⟩
  | .hbm, ⟨65, _⟩ => ⟨S65536x2048, .i1⟩
  | .hbm, ⟨66, _⟩ => ⟨S_, .f32⟩
  | .hbm, ⟨67, _⟩ => ⟨S65536x2048, .f32⟩
  | .hbm, ⟨68, _⟩ => ⟨S65536x2048, .f32⟩
  | .hbm, ⟨69, _⟩ => ⟨S65536x2048, .f32⟩
  | .hbm, ⟨70, _⟩ => ⟨S65536x2048, .bf16⟩
  | .hbm, ⟨71, _⟩ => ⟨S2048x2048, .bf16⟩
  | .hbm, ⟨72, _⟩ => ⟨S2048x2048, .bf16⟩
  | .hbm, ⟨73, _⟩ => ⟨S65536x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_c_2 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v5 : Ref sig .tc := ⟨.hbm, 22, rfl⟩
abbrev main_call2_c : Ref sig .tc := ⟨.hbm, 23, rfl⟩
abbrev main_call2_v0 : Ref sig .tc := ⟨.hbm, 24, rfl⟩
abbrev main_call2_v1 : Ref sig .tc := ⟨.hbm, 25, rfl⟩
abbrev main_call2_c_0 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_call2_v5 : Ref sig .tc := ⟨.hbm, 30, rfl⟩
abbrev main_call2_c_1 : Ref sig .tc := ⟨.hbm, 31, rfl⟩
abbrev main_call2_c_2 : Ref sig .tc := ⟨.hbm, 32, rfl⟩
abbrev main_call2_v6 : Ref sig .tc := ⟨.hbm, 33, rfl⟩
abbrev main_call2_v7 : Ref sig .tc := ⟨.hbm, 34, rfl⟩
abbrev main_call2_v8 : Ref sig .tc := ⟨.hbm, 35, rfl⟩
abbrev main_call2_v9 : Ref sig .tc := ⟨.hbm, 36, rfl⟩
abbrev main_call2_v10 : Ref sig .tc := ⟨.hbm, 37, rfl⟩
abbrev main_call2_v11 : Ref sig .tc := ⟨.hbm, 38, rfl⟩
abbrev main_call2_c_3 : Ref sig .tc := ⟨.hbm, 39, rfl⟩
abbrev main_call2_v12 : Ref sig .tc := ⟨.hbm, 40, rfl⟩
abbrev main_call2_v13 : Ref sig .tc := ⟨.hbm, 41, rfl⟩
abbrev main_call2_v14 : Ref sig .tc := ⟨.hbm, 42, rfl⟩
abbrev main_call2_cst : Ref sig .tc := ⟨.hbm, 43, rfl⟩
abbrev main_call2_v15 : Ref sig .tc := ⟨.hbm, 44, rfl⟩
abbrev main_v6 : Ref sig .tc := ⟨.hbm, 45, rfl⟩
abbrev main_call3_c : Ref sig .tc := ⟨.hbm, 46, rfl⟩
abbrev main_call3_v0 : Ref sig .tc := ⟨.hbm, 47, rfl⟩
abbrev main_call3_v1 : Ref sig .tc := ⟨.hbm, 48, rfl⟩
abbrev main_call3_c_0 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_call3_v5 : Ref sig .tc := ⟨.hbm, 53, rfl⟩
abbrev main_call3_c_1 : Ref sig .tc := ⟨.hbm, 54, rfl⟩
abbrev main_call3_c_2 : Ref sig .tc := ⟨.hbm, 55, rfl⟩
abbrev main_call3_v6 : Ref sig .tc := ⟨.hbm, 56, rfl⟩
abbrev main_call3_v7 : Ref sig .tc := ⟨.hbm, 57, rfl⟩
abbrev main_call3_v8 : Ref sig .tc := ⟨.hbm, 58, rfl⟩
abbrev main_call3_v9 : Ref sig .tc := ⟨.hbm, 59, rfl⟩
abbrev main_call3_v10 : Ref sig .tc := ⟨.hbm, 60, rfl⟩
abbrev main_call3_v11 : Ref sig .tc := ⟨.hbm, 61, rfl⟩
abbrev main_call3_c_3 : Ref sig .tc := ⟨.hbm, 62, rfl⟩
abbrev main_call3_v12 : Ref sig .tc := ⟨.hbm, 63, rfl⟩
abbrev main_call3_v13 : Ref sig .tc := ⟨.hbm, 64, rfl⟩
abbrev main_call3_v14 : Ref sig .tc := ⟨.hbm, 65, rfl⟩
abbrev main_call3_cst : Ref sig .tc := ⟨.hbm, 66, rfl⟩
abbrev main_call3_v15 : Ref sig .tc := ⟨.hbm, 67, rfl⟩
abbrev main_v7 : Ref sig .tc := ⟨.hbm, 68, rfl⟩
abbrev main_v8 : Ref sig .tc := ⟨.hbm, 69, rfl⟩
abbrev main_v9 : Ref sig .tc := ⟨.hbm, 70, rfl⟩
abbrev main_v10 : Ref sig .tc := ⟨.hbm, 71, rfl⟩
abbrev main_v11 : Ref sig .tc := ⟨.hbm, 72, rfl⟩
abbrev main_v12 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2048x2_S2048x1_0_0 : S2048x2.Slices ![0, 0] S2048x1
  shapeCasts_S2048x1_S2048 : S2048x1.ShapeCasts S2048
  bcast_S_S2048 : S_.BroadcastsInDim S2048 (![] : Fin 0 → Fin S2048.rank)
  slices_S2048x2_S2048x1_0_1 : S2048x2.Slices ![0, 1] S2048x1
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  reducesTo_S2048x1_S2048_d1 : S2048x1.ReducesTo [1] S2048
  h_S_ : 0 < S_.numel
  bcast_S2048_S65536x2048_1 : S2048.BroadcastsInDim S65536x2048 (![1] : Fin 1 → Fin S65536x2048.rank)
  bcast_S_S65536x2048 : S_.BroadcastsInDim S65536x2048 (![] : Fin 0 → Fin S65536x2048.rank)
  bitsLt_bf16_f32 : FTy.bits .bf16 < FTy.bits .f32
  transposes_S2048x2048_S2048x2048_1_0 : S2048x2048.Transposes [1, 0] S2048x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  gather_S65536x1024_S2048x1_S65536x2048_0_1_n_n_1_1_655361_wf : GatherDims.WF S65536x1024 S2048x1 S65536x2048 [0] [1] [] [1] [] 1 ![65536, 1]
  dot_S1024x2048_S2048x2048_S1024x2048_1_0_0_1_n_n_wf : DotDims.WF S1024x2048 S2048x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S65536x2048.size a
  hwx0_0 : ∀ i : grid0.Coords, EltTy.bits .bf16 = 32 ∨ (Rect.block (s := S65536x2048) S1024x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S65536x2048.size a
  hwx0_2 : ∀ i : grid0.Coords, EltTy.bits .f32 = 32 ∨ (Rect.block (s := S65536x2048) S1024x2048.size (cc0_transform_2 i) (hinb0_2 i)).WholeWords (EltTy.packing .f32)

variable [Facts₀]

def gather_S65536x1024_S2048x1_S65536x2048_0_1_n_n_1_1_655361 : GatherDims S65536x1024 S2048x1 S65536x2048 where
  offsetDims := [0]
  collapsedSliceDims := [1]
  operandBatchingDims := []
  startIndicesBatchingDims := []
  startIndexMap := [1]
  indexVectorDim := 1
  sliceSizes := ![65536, 1]
  wf := gather_S65536x1024_S2048x1_S65536x2048_0_1_n_n_1_1_655361_wf
def dot_S1024x2048_S2048x2048_S1024x2048_1_0_0_1_n_n : DotDims S1024x2048 S2048x2048 S1024x2048 where
  lhsContracting := [1]
  rhsContracting := [0]
  lhsNonContracting := [0]
  rhsNonContracting := [1]
  lhsBatch := []
  rhsBatch := []
  wf := dot_S1024x2048_S2048x2048_S1024x2048_1_0_0_1_n_n_wf

abbrev win0_0 : Pipeline.Window sig grid0 :=
  Pipeline.Window.ofSpec (Memref.whole main_v9) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S2048x2 : Shape := ⟨2, ![2048, 2]⟩
abbrev S2048x2048 : Shape := ⟨2, ![2048, 2048]⟩
abbrev S2048x1 : Shape := ⟨2, ![2048, 1]⟩
abbrev S2048 : Shape := ⟨1, ![2048]⟩
abbrev S_ : Shape := ⟨0, ![]⟩
abbrev S65536x2048 : Shape := ⟨2, ![65536, 2048]⟩

abbrev nBuf : Space → Nat
  | .hbm => 27
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S2048x2, .i32⟩
  | .hbm, ⟨2, _⟩ => ⟨S2048x2048, .f32⟩
  | .hbm, ⟨3, _⟩ => ⟨S2048x1, .i32⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i1⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S2048x1, .i32⟩
  | .hbm, ⟨13, _⟩ => ⟨S65536x2048, .f32⟩
  | .hbm, ⟨14, _⟩ => ⟨S2048x1, .i32⟩
  | .hbm, ⟨15, _⟩ => ⟨S2048, .i32⟩
  | .hbm, ⟨16, _⟩ => ⟨S_, .i32⟩
  | .hbm, ⟨17, _⟩ => ⟨S2048, .i32⟩
  | .hbm, ⟨18, _⟩ => ⟨S2048, .i1⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S2048, .i32⟩
  | .hbm, ⟨23, _⟩ => ⟨S2048x1, .i32⟩
  | .hbm, ⟨24, _⟩ => ⟨S65536x2048, .f32⟩
  | .hbm, ⟨25, _⟩ => ⟨S65536x2048, .f32⟩
  | .hbm, ⟨26, _⟩ => ⟨S65536x2048, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  slices_S2048x2_S2048x1_0_0 : S2048x2.Slices ![0, 0] S2048x1
  shapeCasts_S2048x1_S2048 : S2048x1.ShapeCasts S2048
  bcast_S_S2048 : S_.BroadcastsInDim S2048 (![] : Fin 0 → Fin S2048.rank)
  bcast_S2048_S2048x1_0 : S2048.BroadcastsInDim S2048x1 (![0] : Fin 1 → Fin S2048x1.rank)
  slices_S2048x2_S2048x1_0_1 : S2048x2.Slices ![0, 1] S2048x1
  gather_S65536x1024_S2048x1_S65536x2048_0_1_n_n_1_1_655361_wf : GatherDims.WF S65536x1024 S2048x1 S65536x2048 [0] [1] [] [1] [] 1 ![65536, 1]
  dot_S65536x2048_S2048x2048_S65536x2048_1_1_0_0_n_n_wf : DotDims.WF S65536x2048 S2048x2048 S65536x2048 [1] [1] [0] [0] [] []

variable [Facts₀]

def gather_S65536x1024_S2048x1_S65536x2048_0_1_n_n_1_1_655361 : GatherDims S65536x1024 S2048x1 S65536x2048 where
  offsetDims := [0]
  collapsedSliceDims := [1]
  operandBatchingDims := []
  startIndicesBatchingDims := []
  startIndexMap := [1]
  indexVectorDim := 1
  sliceSizes := ![65536, 1]
  wf := gather_S65536x1024_S2048x1_S65536x2048_0_1_n_n_1_1_655361_wf
def dot_S65536x2048_S2048x2048_S65536x2048_1_1_0_0_n_n : DotDims S65536x2048 S2048x2048 S65536x2048 where
  lhsContracting := [1]
  rhsContracting := [1]
  lhsNonContracting := [0]
  rhsNonContracting := [0]
  lhsBatch := []
  rhsBatch := []
  wf := dot_S65536x2048_S2048x2048_S65536x2048_1_1_0_0_n_n_wf

class Facts : Prop extends Facts₀ where

variable [Facts]
-- ==== Proof.HostTerms.lean ====
/-
  The kernel program's host prefix, as terms. Before the region the program computes

    * from each column `j ∈ {0, 1}` of the [2048, 2] index array the index vector `col j`, clipped into [0, 1023];
    * with each clipped vector a "take" of columns of `x`: the numpy-style wrap of negative indices, the bounds test
      `0 ≤ i ≤ 1023` reduced to one bit per index, the gather of the columns, and the select that fills a column with
      NaN where the bit is clear;
    * the product of the two takes, rounded to bf16 (the identity over the extended reals): the region's first array;
    * the weight rounded to bf16 and transposed: the region's second array.

  `quads` and `weightT` name the last two.
-/
import proofs.«425767_j18897856103243_3_alg».proof.Proof.Gen.KernelIdeal

noncomputable section

namespace Cert.KernelIdeal.HostTerms

open Cert.KernelIdeal Idealize.ShloMosaic Idealize.ShloMosaic.TcCoe

variable {F : FTy → Type} [FloatOps F]

/-- Column 0 of the index array as a vector of 2048 words. -/
def col0 (idx : IVec S2048x2 32) : IVec S2048 32 :=
  shapeCast S2048 (extractStridedSlice S2048x1 ![0, 0] idx Facts₀.slices_S2048x2_S2048x1_0_0) Facts₀.shapeCasts_S2048x1_S2048
/-- Column 1 of the index array as a vector of 2048 words. -/
def col1 (idx : IVec S2048x2 32) : IVec S2048 32 :=
  shapeCast S2048 (extractStridedSlice S2048x1 ![0, 1] idx Facts₀.slices_S2048x2_S2048x1_0_1) Facts₀.shapeCasts_S2048x1_S2048

/-- The clip into [0, 1023]. -/
def clipped (i : IVec S2048 32) : IVec S2048 32 :=
  minsi (broadcastInDim S2048 ![] Facts₀.bcast_S_S2048 (id (constantI S_ 32 1023#32)))
    (maxsi (broadcastInDim S2048 ![] Facts₀.bcast_S_S2048 (id (constantI S_ 32 0#32))) i)

/-- The index vector after the wrap of negative indices. -/
def wrapped (i : IVec S2048 32) : IVec S2048 32 :=
  select (cmpi .slt i (broadcastInDim S2048 ![] Facts₀.bcast_S_S2048 (constantI S_ 32 0#32)))
    (addi i (broadcastInDim S2048 ![] Facts₀.bcast_S_S2048 (constantI S_ 32 1024#32))) i

/-- The index vector as the gather's [2048, 1] start indices. -/
def asStarts (i : IVec S2048 32) : IVec S2048x1 32 := broadcastInDim S2048x1 ![0] Facts₀.bcast_S2048_S2048x1_0 i

/-- The bounds test of the start indices, one bit per index. -/
def inBounds (w : IVec S2048x1 32) : IVec S2048 1 :=
  Host.reduce IntOp.andi
    (andi (cmpi .sge w (broadcastInDim S2048x1 ![] Facts₀.bcast_S_S2048x1 (constantI S_ 32 0#32)))
      (cmpi .sle w (broadcastInDim S2048x1 ![0, 1] Facts₀.bcast_S1x1_S2048x1_0_1
        (broadcastInDim S1x1 ![1] Facts₀.bcast_S1_S1x1_1 (constantI S1 32 1023#32)))))
    (constantI S_ 1 1#1) Facts₀.reducesTo_S2048x1_S2048_d1 Facts₀.h_S_

/-- The columns of `x` the index vector names, with the fill where an index is out of bounds. -/
def take (x : FVec F S65536x1024 .f32) (i : IVec S2048 32) : FVec F S65536x2048 .f32 :=
  select (broadcastInDim S65536x2048 ![1] Facts₀.bcast_S2048_S65536x2048_1 (inBounds (asStarts (wrapped i))))
    (Host.gather gather_S65536x1024_S2048x1_S65536x2048_0_1_n_n_1_1_655361 x (asStarts (wrapped i)))
    (broadcastInDim S65536x2048 ![] Facts₀.bcast_S_S65536x2048 (constant S_ .f32 0x7FC00000#32))

/-- The region's first array: the product of the two takes, in bf16. -/
def quads (x : FVec F S65536x1024 .f32) (idx : IVec S2048x2 32) : FVec F S65536x2048 .bf16 :=
  truncf .bf16 (mulf (take x (clipped (col0 idx))) (take x (clipped (col1 idx)))) Facts₀.bitsLt_bf16_f32

/-- The region's second array: the weight in bf16, transposed. -/
def weightT (w : FVec F S2048x2048 .f32) : FVec F S2048x2048 .bf16 :=
  transpose S2048x2048 [1, 0] (truncf .bf16 w Facts₀.bitsLt_bf16_f32) Facts₀.transposes_S2048x2048_S2048x2048_1_0

end Cert.KernelIdeal.HostTerms

end
-- ==== Proof.HostPrefix.lean ====
/-
  What the kernel region finds in its two staged arrays: the host prefix's seventy operations, read back in one pass,
  leave the first staged array at `quads` of the argument arrays and the second at `weightT` of the weight
  (HostTerms names the two terms). The read-back term and the named term are the same composition of operations;
  once the transports along the buffers' (trivial) type equalities are dropped and the names unfolded they agree
  syntactically.
-/
import proofs.«425767_j18897856103243_3_alg».proof.Proof.Gen.KernelIdeal.Frame
import proofs.«425767_j18897856103243_3_alg».proof.Proof.HostTerms
import Idealize.ShloMosaic.Lib.StableHlo.Run

noncomputable section

namespace Cert.KernelIdeal.HostPrefix

open Cert.KernelIdeal Cert.KernelIdeal.Gen Cert.KernelIdeal.HostTerms
open Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 1000000 in
theorem staged_weightT (c : Dev nD) :
    (V m c main_v11 : FVec F S2048x2048 .bf16) = weightT (F := F) (m ((c : Thread nD τ).loc main_arg2)) := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

set_option maxHeartbeats 1000000 in
theorem staged_quads (c : Dev nD) :
    (V m c main_v9 : FVec F S65536x2048 .bf16)
      = quads (F := F) (m ((c : Thread nD τ).loc main_arg0)) (m ((c : Thread nD τ).loc main_arg1)) := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  simp only [cast_eq, id]
  unfold quads take inBounds asStarts wrapped clipped col0 col1
  rfl

end Cert.KernelIdeal.HostPrefix

end
-- ==== Proof.BodyProduct.lean ====
/-
  The kernel body at one grid point. The body loads its two staged blocks whole, a [1024, 2048] block `a` of the
  gathered products and the whole [2048, 2048] transposed weight `b`, and stores their matrix product into a zero
  accumulator. Over the extended reals the entry `(r, o)` of what it stores is the plain sum

      ∑ k < 2048,  a[r, k] · b[k, o]

  (the two identity reshapes of the loaded blocks drop out, and the product into the zero accumulator is the sum
  over the one contracted axis, re-indexed by its single coordinate).
-/
import proofs.«425767_j18897856103243_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.BodyProduct

open Cert.KernelIdeal Cert.KernelIdeal.Gen Idealize.ShloMosaic Idealize.ShloMosaic.TcCoe Idealize.ShloMosaic.ValueIdx

/-! ## The operand indices of the product at an output index and a contraction index -/

theorem lhs_axis0 (i : S1024x2048.Idx) (q : dot_S1024x2048_S2048x2048_S1024x2048_1_0_0_1_n_n.contr.Idx) :
    (dot_S1024x2048_S2048x2048_S1024x2048_1_0_0_1_n_n.lhsIdx i q 0).val = (i 0).val := by
  unfold DotDims.lhsIdx
  rw [dif_neg (show ¬(0 : Fin S1024x2048.rank) ∈ dot_S1024x2048_S2048x2048_S1024x2048_1_0_0_1_n_n.lhsBatch by decide), dif_pos (show (0 : Fin S1024x2048.rank) ∈ dot_S1024x2048_S2048x2048_S1024x2048_1_0_0_1_n_n.lhsNonContracting by decide)]
  rfl
theorem lhs_axis1 (i : S1024x2048.Idx) (q : dot_S1024x2048_S2048x2048_S1024x2048_1_0_0_1_n_n.contr.Idx) :
    (dot_S1024x2048_S2048x2048_S1024x2048_1_0_0_1_n_n.lhsIdx i q 1).val = (q ⟨0, by decide⟩).val :=
  dot_S1024x2048_S2048x2048_S1024x2048_1_0_0_1_n_n.lhsIdx_val_of_single rfl i q
theorem rhs_axis0 (i : S1024x2048.Idx) (q : dot_S1024x2048_S2048x2048_S1024x2048_1_0_0_1_n_n.contr.Idx) :
    (dot_S1024x2048_S2048x2048_S1024x2048_1_0_0_1_n_n.rhsIdx i q 0).val = (q ⟨0, by decide⟩).val :=
  dot_S1024x2048_S2048x2048_S1024x2048_1_0_0_1_n_n.rhsIdx_val_of_single rfl i q
theorem rhs_axis1 (i : S1024x2048.Idx) (q : dot_S1024x2048_S2048x2048_S1024x2048_1_0_0_1_n_n.contr.Idx) :
    (dot_S1024x2048_S2048x2048_S1024x2048_1_0_0_1_n_n.rhsIdx i q 1).val = (i 1).val := by
  unfold DotDims.rhsIdx
  rw [dif_neg (show ¬(1 : Fin S2048x2048.rank) ∈ dot_S1024x2048_S2048x2048_S1024x2048_1_0_0_1_n_n.rhsBatch by decide), dif_pos (show (1 : Fin S2048x2048.rank) ∈ dot_S1024x2048_S2048x2048_S1024x2048_1_0_0_1_n_n.rhsNonContracting by decide)]
  rfl

/-- Entry `(i 0, k)` of the left block. -/
abbrev rowAt (i : S1024x2048.Idx) (k : Fin 2048) : S1024x2048.Idx := fun a => match a with
  | ⟨0, _⟩ => ⟨(i 0).val, (i 0).isLt⟩
  | ⟨1, _⟩ => ⟨k.val, k.isLt⟩
/-- Entry `(k, i 1)` of the right block. -/
abbrev colAt (i : S1024x2048.Idx) (k : Fin 2048) : S2048x2048.Idx := fun a => match a with
  | ⟨0, _⟩ => ⟨k.val, k.isLt⟩
  | ⟨1, _⟩ => ⟨(i 1).val, (i 1).isLt⟩

/-- The stored block at an index: the row of the left block against the column of the right block. -/
theorem stored_apply (a : Vec Ideal S1024x2048 .bf16) (b : Vec Ideal S2048x2048 .bf16) (i : S1024x2048.Idx) :
    k0_pay1 (F := Ideal) a b i = ∑ k : Fin 2048, a (rowAt i k) * b (colAt i k) := by
  unfold k0_pay1
  simp only [matmul]
  rw [shapeCast_self, shapeCast_self, Ideal.matmul_constant_zero_apply,
    ← Equiv.sum_comp (contrEquiv1 dot_S1024x2048_S2048x2048_S1024x2048_1_0_0_1_n_n 2048 rfl rfl).symm]
  refine Finset.sum_congr rfl fun k _ => ?_
  have hk := contrEquiv1_symm_val dot_S1024x2048_S2048x2048_S1024x2048_1_0_0_1_n_n 2048 rfl rfl k
  have el : dot_S1024x2048_S2048x2048_S1024x2048_1_0_0_1_n_n.lhsIdx i ((contrEquiv1 dot_S1024x2048_S2048x2048_S1024x2048_1_0_0_1_n_n 2048 rfl rfl).symm k) = rowAt i k := funext fun x => Fin.ext (by
    match x with
    | ⟨0, _⟩ => exact lhs_axis0 _ _
    | ⟨1, _⟩ => exact (lhs_axis1 _ _).trans hk)
  have er : dot_S1024x2048_S2048x2048_S1024x2048_1_0_0_1_n_n.rhsIdx i ((contrEquiv1 dot_S1024x2048_S2048x2048_S1024x2048_1_0_0_1_n_n 2048 rfl rfl).symm k) = colAt i k := funext fun x => Fin.ext (by
    match x with
    | ⟨0, _⟩ => exact (rhs_axis0 _ _).trans hk
    | ⟨1, _⟩ => exact rhs_axis1 _ _)
  rw [el, er]

end Cert.KernelIdeal.BodyProduct

end
-- ==== Proof.OutputArray.lean ====
/-
  From blocks to the array. The region runs the body at 64 grid points; point `t` stages rows
  `1024·t … 1024·t + 1023` of the first array `A` (all 2048 columns), the whole second array `B` at every point,
  and writes back rows `1024·t … 1024·t + 1023` of the output. With the body's stored block read as the row-by-column
  sums (BodyProduct), what point `t` writes back is block `t` of

      matProduct A B  =  fun (r, o) => ∑ k < 2048,  A[r, k] · B[k, o],

  the 64 row blocks cover the output, and so the output array ends holding `matProduct A B` of the two arrays the
  region was entered with.
-/
import proofs.«425767_j18897856103243_3_alg».proof.Proof.Gen.KernelIdeal.Value
import proofs.«425767_j18897856103243_3_alg».proof.Proof.BodyProduct
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.OutputArray

open Cert.KernelIdeal Cert.KernelIdeal.Gen Cert.KernelIdeal.Value Cert.KernelIdeal.BodyProduct

variable (m : (ℓ : Loc nD τ sig) → Buf (Elt Ideal) ℓ) (ρ : Dev nD → PrngReg)

theorem origin : (![0, 0] : Fin 2 → Nat) = fun _ => 0 := funext fun a => by fin_cases a <;> rfl

/-- Entry `(i 0, k)` of the [65536, 2048] left array. -/
abbrev leftAt (i : S65536x2048.Idx) (k : Fin 2048) : S65536x2048.Idx := fun a => match a with
  | ⟨0, _⟩ => ⟨(i 0).val, (i 0).isLt⟩
  | ⟨1, _⟩ => ⟨k.val, k.isLt⟩
/-- Entry `(k, i 1)` of the [2048, 2048] right array. -/
abbrev rightAt (i : S65536x2048.Idx) (k : Fin 2048) : S2048x2048.Idx := fun a => match a with
  | ⟨0, _⟩ => ⟨k.val, k.isLt⟩
  | ⟨1, _⟩ => ⟨(i 1).val, (i 1).isLt⟩

/-- The matrix product of a [65536, 2048] array and a [2048, 2048] array over the extended reals. -/
def matProduct (A : FVec Ideal S65536x2048 .bf16) (B : FVec Ideal S2048x2048 .bf16) : FVec Ideal S65536x2048 .f32 :=
  fun i => ∑ k : Fin 2048, A (leftAt i k) * B (rightAt i k)

/-- The printed index maps over the grid: the left window and the output window are at row block `t`, column
    block 0; the right window is always at block (0, 0). -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0)

/-- The left window's block at point `t` is rows `1024·t + ·` of the left array. -/
theorem left_block (c : Dev nD) (t : Fin cfg0.N) (y : S1024x2048.Idx) (i : S65536x2048.Idx)
    (h0 : (i 0).val = t.val * 1024 + (y 0).val) (h1 : (i 1).val = (y 1).val) :
    (iblk m c 0 t : Vec Ideal S1024x2048 .bf16) y = (V m c main_v9 : FVec Ideal S65536x2048 .bf16) i := by
  obtain ⟨e0, e1, -, -, -, -⟩ := block_index t
  show V m c main_v9 (((cfg0.win 0).blk t).view.emb y) = V m c main_v9 i
  refine congrArg _ (funext fun a => Fin.ext ?_)
  match a with
  | ⟨0, _⟩ => show win0_0.index t (0 : Fin 2) * 1024 + 1 * (y 0).val = (i 0).val; omega
  | ⟨1, _⟩ => show win0_0.index t (1 : Fin 2) * 2048 + 1 * (y 1).val = (i 1).val; omega

/-- The right window's block at every point is the whole right array. -/
theorem right_block (c : Dev nD) (t : Fin cfg0.N) (y : S2048x2048.Idx) :
    (iblk m c 1 t : Vec Ideal S2048x2048 .bf16) y = (V m c main_v11 : FVec Ideal S2048x2048 .bf16) y := by
  obtain ⟨-, -, e2, e3, -, -⟩ := block_index t
  show V m c main_v11 (((cfg0.win 1).blk t).view.emb y) = V m c main_v11 y
  refine congrArg _ (funext fun a => Fin.ext ?_)
  match a with
  | ⟨0, _⟩ => show win0_1.index t (0 : Fin 2) * 2048 + 1 * (y 0).val = (y 0).val; omega
  | ⟨1, _⟩ => show win0_1.index t (1 : Fin 2) * 2048 + 1 * (y 1).val = (y 1).val; omega

/-- What point `t` writes back is block `t` of the product of the two arrays the region was entered with. -/
theorem flushed_eq (c : Dev nD) (t : Fin cfg0.N) :
    (dats m 0 c).flushed 2 t
      = ((cfg0.win 2).blk t).view.read (Elt Ideal) (matProduct (V m c main_v9) (V m c main_v11)) := by
  rw [flushed2]
  unfold out0_2
  rw [View.canon_unit_zero origin]
  simp only [View.ld_unit_zero (S := S1024x2048) origin, View.ld_unit_zero (S := S2048x2048) origin]
  obtain ⟨-, -, -, -, e4, e5⟩ := block_index t
  funext j
  show k0_pay1 (F := Ideal) (iblk m c 0 t) (iblk m c 1 t) j
    = matProduct (V m c main_v9) (V m c main_v11) (((cfg0.win 2).blk t).view.emb j)
  refine (stored_apply (iblk m c 0 t) (iblk m c 1 t) j).trans ?_
  refine Finset.sum_congr rfl fun k _ => ?_
  have hl := left_block m c t (rowAt j k) (leftAt (((cfg0.win 2).blk t).view.emb j) k)
    (by show win0_2.index t (0 : Fin 2) * 1024 + 1 * (j 0).val = t.val * 1024 + (j 0).val; omega) rfl
  have hr := right_block m c t (colAt j k)
  have hc : colAt j k = rightAt (((cfg0.win 2).blk t).view.emb j) k := funext fun a => Fin.ext (by
    match a with
    | ⟨0, _⟩ => rfl
    | ⟨1, _⟩ => show (j 1).val = win0_2.index t (1 : Fin 2) * 2048 + 1 * (j 1).val; omega)
  rw [hl, hr, hc]

/-- An index of the output is in point `t`'s block iff each coordinate is in the block's range on its axis. -/
theorem mem_block (t : Fin cfg0.N) (i : S65536x2048.Idx) :
    i ∈ ((cfg0.win 2).blk t).view.set ↔ ∀ a : Fin 2, win0_2.index t a * S1024x2048.size a ≤ (i a).val
      ∧ (i a).val < win0_2.index t a * S1024x2048.size a + S1024x2048.size a := by
  show i ∈ ((View.whole main_v12).slice (win0_2.rect t)).set ↔ _
  rw [View.set_slice_whole, Rect.mem_set_unit]
  exact Iff.rfl

/-- Row `r` of the output is in the block of point `r / 1024`. -/
theorem covered (i : S65536x2048.Idx) :
    ∃ t : Fin cfg0.N, (cfg0.win 2).flush t = true ∧ i ∈ ((cfg0.win 2).blk t).view.set := by
  have hi0 : (i 0).val < 65536 := (i 0).isLt
  have hi1 : (i 1).val < 2048 := (i 1).isLt
  have hN : cfg0.N = 64 := N_0
  refine ⟨⟨(i 0).val / 1024, by rw [hN]; omega⟩, flush0_2 _, ?_⟩
  rw [mem_block]
  obtain ⟨-, -, -, -, e4, e5⟩ := block_index ⟨(i 0).val / 1024, by rw [hN]; omega⟩
  intro a
  match a with
  | ⟨0, _⟩ =>
    show win0_2.index _ (0 : Fin 2) * 1024 ≤ (i 0).val ∧ (i 0).val < win0_2.index _ (0 : Fin 2) * 1024 + 1024
    rw [e4]; show (i 0).val / 1024 * 1024 ≤ (i 0).val ∧ (i 0).val < (i 0).val / 1024 * 1024 + 1024; omega
  | ⟨1, _⟩ =>
    show win0_2.index _ (1 : Fin 2) * 2048 ≤ (i 1).val ∧ (i 1).val < win0_2.index _ (1 : Fin 2) * 2048 + 2048
    rw [e5]; omega

/-- The output array after the run is the product of the two arrays the region was entered with. -/
theorem final (c : Dev nD) :
    (dats m 0 c).arrAt 2 cfg0.N = matProduct (V m c main_v9) (V m c main_v11) :=
  (dats m 0 c).arrAt_eq_of_cover 2 (matProduct (V m c main_v9) (V m c main_v11)) (fun t _ => flushed_eq m c t) covered

end Cert.KernelIdeal.OutputArray

end
-- ==== Proof.KernelRun.lean ====
/-
  The kernel program's run, read. The region's output array ends at the matrix product of the two arrays the region
  was entered with (OutputArray), and those are `quads` of the argument arrays and the transposed weight
  (HostPrefix): so after the run the result buffer holds

      result[r, o] = ∑ k < 2048,  quads(x, idx)[r, k] · weightT(W)[k, o],

  and the three argument arrays are as launched.
-/
import proofs.«425767_j18897856103243_3_alg».proof.Proof.Gen.KernelIdeal.Value
import proofs.«425767_j18897856103243_3_alg».proof.Proof.HostPrefix
import proofs.«425767_j18897856103243_3_alg».proof.Proof.OutputArray

noncomputable section

open Idealize.ShloMosaic Idealize.ShloMosaic.TcCoe Idealize.SL.Sem

namespace Cert.KernelIdeal.KernelRun

open Cert.KernelIdeal Cert.KernelIdeal.Gen Cert.KernelIdeal.HostTerms Cert.KernelIdeal.OutputArray

variable (m : (ℓ : Loc nD τ sig) → Buf (Elt Ideal) ℓ) (ρ : Dev nD → PrngReg)

/-- The result array as a function of the three argument arrays. -/
def result (c : Dev nD) : Buf (Elt Ideal) ((c : Thread nD τ).loc main_v12) :=
  matProduct (quads (F := Ideal) (m ((c : Thread nD τ).loc main_arg0)) (m ((c : Thread nD τ).loc main_arg1)))
    (weightT (F := Ideal) (m ((c : Thread nD τ).loc main_arg2)))

theorem final_result (c : Dev nD) : (dats m 0 c).arrAt 2 cfg0.N = result m c := by
  rw [OutputArray.final, Cert.KernelIdeal.HostPrefix.staged_quads, Cert.KernelIdeal.HostPrefix.staged_weightT]
  rfl

/-- Every weakly fair execution ends with the result buffer at `result` and the arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_result m c), (h c).2⟩)
    (Cert.KernelIdeal.Value.run_blocks m ρ)

end Cert.KernelIdeal.KernelRun

end
-- ==== Proof.IndexWords.lean ====
/-
  Column indices in range. An index word `w` with `0 ≤ w < 1024` (signed) is a fixed point of every index
  adjustment either program makes before it gathers a column of the [65536, 1024] array:

  * clipping into [0, 1023]                          `min(1023, max(0, w)) = w`,
  * wrapping a negative index, numpy style           `(w < 0 ? w + 1024 : w) = w`,
  * the bounds test `0 ≤ w ∧ w ≤ 1023`               is true, so the "fill on out of bounds" select keeps the gathered value.

  The facts are stated first on one 32-bit word and then on vectors of words of any shape, where the constants
  are given as vectors that are constantly `0`, `1023`, `1024`.
-/
import Idealize.ShloMosaic.PureOps
import Idealize.ShloMosaic.Lib.Affine
import Idealize.ShloMosaic.Lib.ReduceAll

namespace Cert.IndexWords

open Idealize.ShloMosaic

/-! ## One word -/

/-- A word below 1024 unsigned reads the same signed. -/
theorem toInt_of_lt {w : BitVec 32} (h : w.toNat < 1024) : w.toInt = w.toNat :=
  BitVec.toInt_eq_toNat_of_lt (by omega)

theorem toInt_zero : (0#32 : BitVec 32).toInt = 0 := by decide
theorem toInt_1023 : (1023#32 : BitVec 32).toInt = 1023 := by decide
theorem toInt_1024 : (1024#32 : BitVec 32).toInt = 1024 := by decide

/-- `0 ≤ w` and `w < 1024`, both signed, say that `w` is below 1024 unsigned. -/
theorem lt_of_cmp {w : BitVec 32} (h0 : IntOp.cmpi .sge w 0#32 = 1#1) (h1 : IntOp.cmpi .slt w 1024#32 = 1#1) :
    w.toNat < 1024 := by
  rw [IntOp.cmpi_sge, toInt_zero] at h0
  rw [IntOp.cmpi_slt, toInt_1024] at h1
  have hw := w.isLt
  rw [BitVec.toInt_eq_toNat_cond] at h0 h1
  split at h0 <;> omega

/-- Clipping an in-range word into [0, 1023] leaves it. -/
theorem clip_id {w : BitVec 32} (h : w.toNat < 1024) : IntOp.minsi 1023#32 (IntOp.maxsi 0#32 w) = w := by
  have e := toInt_of_lt h
  have hmax : IntOp.maxsi 0#32 w = w := by
    unfold IntOp.maxsi
    rw [if_neg]
    rw [BitVec.slt_iff_toInt_lt, toInt_zero, e]; omega
  rw [hmax]
  unfold IntOp.minsi
  rw [if_neg]
  rw [BitVec.slt_iff_toInt_lt, toInt_1023, e]; omega

/-- The negative-index wrap does nothing to an in-range word. -/
theorem wrap_id {w : BitVec 32} (h : w.toNat < 1024) :
    Scalar.select (IntOp.cmpi .slt w 0#32) (IntOp.addi w 1024#32) w = w := by
  unfold Scalar.select
  rw [if_neg]
  intro hc
  have hc' : IntOp.cmpi .slt w 0#32 = 1#1 := hc
  rw [IntOp.cmpi_slt, toInt_zero, toInt_of_lt h] at hc'
  omega

/-- The bounds test of an in-range word is true. -/
theorem inb_one {w : BitVec 32} (h : w.toNat < 1024) :
    IntOp.andi (IntOp.cmpi .sge w 0#32) (IntOp.cmpi .sle w 1023#32) = 1#1 := by
  refine IntOp.andi_eq_one.2 ⟨?_, ?_⟩
  · rw [IntOp.cmpi_sge, toInt_zero, toInt_of_lt h]; omega
  · rw [IntOp.cmpi_sle, toInt_1023, toInt_of_lt h]; omega

/-! ## Vectors of words -/

section Vec
variable {s : Shape}

/-- Every word of the vector is below 1024. -/
def InRange (i : IVec s 32) : Prop := ∀ p, (i p).toNat < 1024

theorem clipVec_id (i lo hi : IVec s 32) (hlo : ∀ p, lo p = 0#32) (hhi : ∀ p, hi p = 1023#32) (h : InRange i) :
    minsi hi (maxsi lo i) = i := by
  funext p
  show IntOp.minsi (hi p) (IntOp.maxsi (lo p) (i p)) = i p
  rw [hlo, hhi]; exact clip_id (h p)

theorem wrapVec_id (i z k : IVec s 32) (hz : ∀ p, z p = 0#32) (hk : ∀ p, k p = 1024#32) (h : InRange i) :
    select (cmpi .slt i z) (addi i k) i = i := by
  funext p
  show Scalar.select (IntOp.cmpi .slt (i p) (z p)) (IntOp.addi (i p) (k p)) (i p) = i p
  rw [hz, hk]; exact wrap_id (h p)

theorem inbVec_one (i z k : IVec s 32) (hz : ∀ p, z p = 0#32) (hk : ∀ p, k p = 1023#32) (h : InRange i) (p : s.Idx) :
    andi (cmpi .sge i z) (cmpi .sle i k) p = 1#1 := by
  show IntOp.andi (IntOp.cmpi .sge (i p) (z p)) (IntOp.cmpi .sle (i p) (k p)) = 1#1
  rw [hz, hk]; exact inb_one (h p)

/-- A select on a mask that is all ones keeps its first branch. -/
theorem select_ones {α : Type} (c : IVec s 1) (a b : s.Idx → α) (hc : ∀ p, c p = 1#1) : select c a b = a := by
  funext p
  show Scalar.select (c p) (a p) (b p) = a p
  rw [hc]; rfl

end Vec

/-- A reduction by `and` of a mask that is all ones, from the initial value one, is one everywhere. -/
theorem reduce_and_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  have key : ∀ l : List (Fin s.numel), l.foldl (fun r n => IntOp.andi r (x (s.rowMajor.symm n))) 1#1 = 1#1 := by
    intro l
    induction l with
    | nil => rfl
    | cons a l ih => rw [List.foldl_cons, hx, show IntOp.andi 1#1 1#1 = 1#1 from by decide]; exact ih
  unfold Host.reduce
  rw [hi]
  exact key _

end Cert.IndexWords
-- ==== Proof.InRangeTake.lean ====
/-
  In-range indices. When every word of the [2048, 2] index array is below 1024, the kernel program's clip, its wrap
  of negative indices and its fill on out-of-bounds indices all drop out: each of its two takes is the plain gather
  of the columns that the raw index column names.
-/
import proofs.«425767_j18897856103243_3_alg».proof.Proof.HostTerms
import proofs.«425767_j18897856103243_3_alg».proof.Proof.IndexWords

noncomputable section

namespace Cert.KernelIdeal.HostTerms

open Cert.KernelIdeal Idealize.ShloMosaic Idealize.ShloMosaic.TcCoe Cert.IndexWords

variable {F : FTy → Type} [FloatOps F]

theorem col0_inRange {idx : IVec S2048x2 32} (h : InRange idx) : InRange (col0 idx) := fun p => h _
theorem col1_inRange {idx : IVec S2048x2 32} (h : InRange idx) : InRange (col1 idx) := fun p => h _

theorem clipped_of_inRange {i : IVec S2048 32} (h : InRange i) : clipped i = i :=
  clipVec_id i _ _ (fun _ => rfl) (fun _ => rfl) h

theorem wrapped_of_inRange {i : IVec S2048 32} (h : InRange i) : wrapped i = i :=
  wrapVec_id i _ _ (fun _ => rfl) (fun _ => rfl) h

theorem asStarts_inRange {i : IVec S2048 32} (h : InRange i) : InRange (asStarts i) := fun p => h _

theorem inBounds_of_inRange {w : IVec S2048x1 32} (h : InRange w) (p : S2048.Idx) : inBounds w p = 1#1 :=
  reduce_and_ones _ _ _ _ (fun q => inbVec_one w _ _ (fun _ => rfl) (fun _ => rfl) h q) (fun _ => rfl) p

/-- With every index in range the take is the gather of the named columns. -/
theorem take_of_inRange (x : FVec F S65536x1024 .f32) {i : IVec S2048 32} (h : InRange i) :
    take x (clipped i) = Host.gather gather_S65536x1024_S2048x1_S65536x2048_0_1_n_n_1_1_655361 x (asStarts i) := by
  rw [clipped_of_inRange h]
  unfold take
  rw [wrapped_of_inRange h]
  exact select_ones _ _ _ fun p => inBounds_of_inRange (asStarts_inRange h) _

end Cert.KernelIdeal.HostTerms

end
-- ==== Proof.ReferenceValue.lean ====
/-
  The reference's result is the same product. The reference wraps each index column (a negative index `i` becomes
  `i + 1024`), gathers the named columns of `x`, multiplies the two gathers entry by entry and contracts the product
  with the weight along the weight's second axis:

      out[r, o] = ∑ k < 2048,  (x[r, i₀ k] · x[r, i₁ k]) · W[o, k].

  When every index is in range the wrap does nothing, so the entrywise product is the kernel program's first staged
  array (whose clip, wrap and fill do nothing either), and `W[o, k]` is entry `[k, o]` of its second, the
  transposed weight: the reference's result is the matrix product of the kernel's two staged arrays.
-/
import proofs.«425767_j18897856103243_3_alg».proof.Proof.Gen.ReferenceIdeal.Read
import proofs.«425767_j18897856103243_3_alg».proof.Proof.InRangeTake
import proofs.«425767_j18897856103243_3_alg».proof.Proof.OutputArray

noncomputable section

namespace Cert.ReferenceIdeal.RefValue

open Cert.ReferenceIdeal Cert.ReferenceIdeal.Gen Cert.ReferenceIdeal.Read
open Idealize.ShloMosaic Idealize.ShloMosaic.TcCoe Cert.IndexWords
open Cert.KernelIdeal.HostTerms (quads weightT take clipped col0 col1 asStarts)
open Cert.KernelIdeal.OutputArray (matProduct leftAt rightAt)

variable {F : FTy → Type} [FloatOps F]

/-- The wrap leaves an in-range column 0 as it is. -/
theorem wrap0 (idx : IVec S2048x2 32) (h : InRange idx) : val_main_v6 (F := F) idx = val_main_v1 (F := F) idx := by
  unfold val_main_v6 val_main_v3 val_main_v5
  exact wrapVec_id (val_main_v1 (F := F) idx) (val_main_v2 (F := F)) (val_main_v4 (F := F)) (fun _ => rfl) (fun _ => rfl) (fun p => h _)

/-- The wrap leaves an in-range column 1 as it is. -/
theorem wrap1 (idx : IVec S2048x2 32) (h : InRange idx) : val_main_v15 (F := F) idx = val_main_v10 (F := F) idx := by
  unfold val_main_v15 val_main_v12 val_main_v14
  exact wrapVec_id (val_main_v10 (F := F) idx) (val_main_v11 (F := F)) (val_main_v13 (F := F)) (fun _ => rfl) (fun _ => rfl) (fun p => h _)

/-- With every index in range, the reference's entrywise product of its two gathers is the kernel program's first
    staged array. -/
theorem products_eq (x : FVec Ideal S65536x1024 .f32) (idx : IVec S2048x2 32) (h : InRange idx) :
    (val_main_v18 (F := Ideal) x idx : (⟨2, ![65536, 2048]⟩ : Shape).Idx → EReal) = quads (F := Ideal) x idx := by
  unfold quads
  rw [Cert.KernelIdeal.HostTerms.take_of_inRange (F := Ideal) x (Cert.KernelIdeal.HostTerms.col0_inRange h),
    Cert.KernelIdeal.HostTerms.take_of_inRange (F := Ideal) x (Cert.KernelIdeal.HostTerms.col1_inRange h)]
  unfold val_main_v18 val_main_v8 val_main_v17 val_main_v7 val_main_v16
  rw [wrap0 idx h, wrap1 idx h]
  rfl

/-- Entry `[k, o]` of the transposed weight is entry `[o, k]` of the weight. -/
theorem weightT_apply (W : FVec Ideal S2048x2048 .f32) (j k' : (⟨2, ![2048, 2048]⟩ : Shape).Idx)
    (h0 : (k' 1).val = (j 0).val) (h1 : (k' 0).val = (j 1).val) :
    (weightT (F := Ideal) W : (⟨2, ![2048, 2048]⟩ : Shape).Idx → EReal) j = W k' := by
  unfold weightT
  refine (transpose_apply [1, 0] _ _ j k' (fun b => ?_)).trans rfl
  match b with
  | ⟨0, _⟩ => exact h0
  | ⟨1, _⟩ => exact h1

/-- The reference's result, with every index in range, is the matrix product of the kernel's two staged arrays. -/
theorem result_eq (x : FVec Ideal S65536x1024 .f32) (idx : IVec S2048x2 32) (W : FVec Ideal S2048x2048 .f32) (h : InRange idx) :
    (val_main_v19 (F := Ideal) x idx W : (⟨2, ![65536, 2048]⟩ : Shape).Idx → EReal)
      = matProduct (quads (F := Ideal) x idx) (weightT (F := Ideal) W) := by
  funext i
  rw [val_main_v19_apply]
  unfold matProduct
  refine Finset.sum_congr rfl fun k _ => ?_
  rw [products_eq x idx h, weightT_apply W (rightAt i k) (ridx_main_v19 i k) rfl rfl]
  rfl

end Cert.ReferenceIdeal.RefValue

end
-- ==== Proof.PreRange.lean ====
/-
  Reading the precondition. Its last conjunct is `jnp.all((idx ≥ 0) & (idx < 1024))` over the [2048, 2] index array:
  the printed predicate ends in the `and` of the two finiteness tests with the reduction by `and`, over both axes,
  of the entrywise `and` of the two signed comparisons. If the predicate is one, that reduction is one, so the
  entrywise `and` is one at every index, so both comparisons hold there: every index word is below 1024 unsigned.
-/
import proofs.«425767_j18897856103243_3_alg».proof.Pre_finite_inputs
import proofs.«425767_j18897856103243_3_alg».proof.Proof.Gen.Pre_finite_inputs
import proofs.«425767_j18897856103243_3_alg».proof.Proof.IndexWords
import Idealize.ShloMosaic.Lib.ReduceAll
import Idealize.ShloMosaic.Lib.ValueIdx

noncomputable section

namespace Cert.PreRange

open Idealize.ShloMosaic Cert.IndexWords Cert.Pre_finite_inputs

instance : Subsingleton S_.Idx := ⟨fun a b => funext fun d => d.elim0⟩

/-- The precondition, all ones, puts every index word in range. -/
theorem inRange_of_pre {F : FTy → Type} [FloatOps F] (x : FVec F S65536x1024 .f32) (idx : IVec S2048x2 32)
    (W : FVec F S2048x2048 .f32) (h : Cert.Pre_finite_inputs.fn (F := F) x idx W = fun _ => 1#1) : InRange idx := by
  intro j
  have e := congrFun h ValueIdx.ix0
  dsimp only [Cert.Pre_finite_inputs.fn] at e
  have eAll := (IntOp.andi_eq_one.1 e).2
  have ej := Host.reduce_andi_all _ _ _ _ ValueIdx.ix0 eAll j
  obtain ⟨hge, hlt⟩ := IntOp.andi_eq_one.1 ej
  exact lt_of_cmp hge hlt

end Cert.PreRange

end
-- ==== Proof.lean ====
/-
  The certificate's proof. The kernel computes, for a [65536, 1024] array `x`, a [2048, 2] array of column indices
  `(i₀, i₁)` and a [2048, 2048] weight `W`,

      out[r, o] = ∑ k < 2048,  (x[r, i₀ k] · x[r, i₁ k]) · W[o, k],

  the quadratic features `x[r, i₀ k] · x[r, i₁ k]` formed on the host and the contraction with `W` done by the
  region, one block of 1024 rows per grid point; the reference gathers the same columns and contracts with one
  `dot_general`. The two programs treat an out-of-range index differently (the kernel clips it into [0, 1023], the
  reference wraps a negative one numpy style), so the claim is made where every index is in `[0, 1024)`, which is
  what the precondition's last conjunct says. There both are the sum above, term by term and in the same order, so no
  law of the extended reals beyond the definitions is needed and the finiteness of `x` and `W` is never opened.

  The three frames are the generated ones (the reference's is its generated run with the result dropped);
  `preserves` is trivial (the ideal pass rewrote nothing). For `algebraic`: the kernel's run ends with the result at
  the matrix product of its two staged arrays (KernelRun over OutputArray, BodyProduct and HostPrefix), the reference's
  run at its composed term, which with in-range indices (PreRange) is that same product (ReferenceValue over
  InRangeTake and IndexWords).
-/
import proofs.«425767_j18897856103243_3_alg».proof.Defs
import proofs.«425767_j18897856103243_3_alg».proof.Proof.Gen.Kernel
import proofs.«425767_j18897856103243_3_alg».proof.Proof.Gen.Kernel.Skeleton
import proofs.«425767_j18897856103243_3_alg».proof.Proof.Gen.Kernel.Launch
import proofs.«425767_j18897856103243_3_alg».proof.Proof.Gen.Kernel.Points
import proofs.«425767_j18897856103243_3_alg».proof.Proof.Gen.Kernel.Frame
import proofs.«425767_j18897856103243_3_alg».proof.Proof.Gen.KernelIdeal
import proofs.«425767_j18897856103243_3_alg».proof.Proof.Gen.KernelIdeal.Skeleton
import proofs.«425767_j18897856103243_3_alg».proof.Proof.Gen.KernelIdeal.Launch
import proofs.«425767_j18897856103243_3_alg».proof.Proof.Gen.KernelIdeal.Points
import proofs.«425767_j18897856103243_3_alg».proof.Proof.Gen.KernelIdeal.Frame
import proofs.«425767_j18897856103243_3_alg».proof.Proof.Gen.ReferenceIdeal
import proofs.«425767_j18897856103243_3_alg».proof.Proof.Gen.Pre_finite_inputs
import proofs.«425767_j18897856103243_3_alg».proof.Proof.Gen.KernelIdeal.Value
import proofs.«425767_j18897856103243_3_alg».proof.Proof.Gen.ReferenceIdeal.Run
import proofs.«425767_j18897856103243_3_alg».proof.Proof.Gen.ReferenceIdeal.Read
import proofs.«425767_j18897856103243_3_alg».proof.Proof.KernelRun
import proofs.«425767_j18897856103243_3_alg».proof.Proof.ReferenceValue
import proofs.«425767_j18897856103243_3_alg».proof.Proof.PreRange
import Idealize.ShloMosaic.Adequacy
import Idealize.ShloMosaic.Init

noncomputable section

namespace Cert.Proof

open Idealize.ShloMosaic Idealize.SL.Sem Cert.Kernel

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both runs end with the result at the matrix product of the kernel's two staged arrays: the kernel's by its run
    read back, the reference's because the precondition puts every index in range. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.KernelIdeal.KernelRun.result m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  have hin : Cert.IndexWords.InRange (s := Cert.KernelIdeal.S2048x2)
      (m ((c.tc : Thread Cert.KernelIdeal.nD Cert.KernelIdeal.τ).loc Cert.KernelIdeal.main_arg1)) :=
    Cert.PreRange.inRange_of_pre _ _ _ (hpre c)
  rw [(hagree c).1, (hagree c).2.1, (hagree c).2.2]
  exact (Cert.ReferenceIdeal.Read.val_main_v19_eq (F := Ideal) _ _ _).trans
    (Cert.ReferenceIdeal.RefValue.result_eq _ _ _ hin)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
